-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S16384x256 : Shape := ⟨2, ![16384, 256]⟩
abbrev S16x256 : Shape := ⟨2, ![16, 256]⟩
abbrev S4096x256 : Shape := ⟨2, ![4096, 256]⟩
abbrev S8x256 : Shape := ⟨2, ![8, 256]⟩
abbrev S1x256 : Shape := ⟨2, ![1, 256]⟩
abbrev S4096 : Shape := ⟨1, ![4096]⟩
abbrev S4096x1 : Shape := ⟨2, ![4096, 1]⟩
abbrev S256 : Shape := ⟨1, ![256]⟩
abbrev S7x256 : Shape := ⟨2, ![7, 256]⟩
abbrev S_ : Shape := ⟨0, ![]⟩

abbrev nBuf : Space → Nat
  | .hbm => 11
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S16x256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S8x256, .f32⟩
  | .local _ .vmem, ⟨3, _⟩ => ⟨S8x256, .f32⟩
  | .local _ .vmem, ⟨4, _⟩ => ⟨S1x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  reduces_S4096x256_S256 : S4096x256.Reduces [0] S256
  shapeCasts_S256_S1x256 : S256.ShapeCasts S1x256
  inb_S8x256_S1x256_0_0 : ∀ a, (![0, 0] : Fin 2 → Nat) a + S1x256.size a ≤ S8x256.size a
  inb_S8x256_S7x256_1_0 : ∀ a, (![1, 0] : Fin 2 → Nat) a + S7x256.size a ≤ S8x256.size a
  h_S7x256 : 0 < S7x256.numel
  reducesTo_S16x256_S256_d0 : S16x256.ReducesTo [0] S256
  h_S_ : 0 < S_.numel
  reducesTo_S256_S_d0 : S256.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S16x256.size a
  hwx0_1 : ∀ i : grid0.Coords, EltTy.bits .f32 = 32 ∨ (Rect.block (s := S16x256) S8x256.size (cc0_transform_1 i) (hinb0_1 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S256x16384 : Shape := ⟨2, ![256, 16384]⟩
abbrev S16384x16384 : Shape := ⟨2, ![16384, 16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x256, .f32⟩
  | .hbm, ⟨10, _⟩ => ⟨S16384x256, .f32⟩
  | .hbm, ⟨11, _⟩ => ⟨S256x16384, .f32⟩
  | .hbm, ⟨12, _⟩ => ⟨S16384x16384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  transposes_S16384x256_S256x16384_1_0 : S16384x256.Transposes [1, 0] S256x16384
  reducesTo_S16384x16384_S_d0_1 : S16384x16384.ReducesTo [0, 1] S_
  dot_S16384x256_S256x16384_S16384x16384_1_0_0_1_n_n_wf : DotDims.WF S16384x256 S256x16384 S16384x16384 [1] [0] [0] [1] [] []

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf

class Facts : Prop extends Facts₀ where

variable [Facts]
-- ==== Proof.GramSum.lean ====
/-
  Row-normalised points and the sum of their Gram matrix, over the extended reals.

  For an array `x` of 16384 rows and 256 columns let `n i = ∑ k, x i k * x i k` and
  `u i d = x i d * (n i)^(-1/2)`.  When every entry of `x` is a real number:
   * the factor `(n i)^(-1/2)` read as a reciprocal square root and read as the quotient `1 / sqrt (n i)`
     give the same entry `u i d`, the real `x i d * (√(n i))⁻¹`.  A row with `n i = 0` has every entry
     zero, both readings of the factor are `⊤` there, and `0 * ⊤ = 0` on the extended reals;
   * the sum of all entries of the Gram matrix, `∑ i, ∑ j, ∑ k, u i k * u j k`, is the squared length of the
     column sums, `∑ d, (∑ i, u i d)²`: finite sums of reals exchange and a product of sums is the
     sum of the products.
  The column sum over all rows is also split into the sums over four consecutive blocks of 4096 rows.
-/
import Idealize.ShloMosaic.PureOps.Ideal
import Idealize.ShloMosaic.PureOps.Ideal.Laws
import Idealize.ShloMosaic.PureOps.IdealRules
import Idealize.ShloMosaic.Lib.ValueIdx
import Mathlib.Algebra.BigOperators.Fin
import Mathlib.Logic.Equiv.Fin.Basic

noncomputable section

namespace Cert.RowNorm

open Idealize.ShloMosaic Idealize.ShloMosaic.ValueIdx

/-- An array of 16384 rows of 256 extended reals. -/
abbrev Arr := (⟨2, ![16384, 256]⟩ : Shape).Idx → EReal

/-- The squared length of row `i`. -/
def sq (x : Arr) (i : Fin 16384) : EReal := ∑ k : Fin 256, x (ix2 i k) * x (ix2 i k)

/-- Entry `d` of row `i` scaled by the reciprocal square root of the row's squared length. -/
def unitK (x : Arr) (i : Fin 16384) (d : Fin 256) : EReal := x (ix2 i d) * Ideal.rsqrt (sq x i)

/-- The same entry with the factor written as the quotient of one by the square root. -/
def unitR (x : Arr) (i : Fin 16384) (d : Fin 256) : EReal :=
  Ideal.div (Ideal.ofBits .f32 0x3F800000#32) (Ideal.sqrt (Ideal.ofBits .f32 0x00000000#32 + sq x i)) * x (ix2 i d)

/-- Column `d` of the normalised rows, summed over all rows. -/
def colSum (x : Arr) (d : Fin 256) : EReal := ∑ i : Fin 16384, unitK x i d

/-- The squared length of the vector of column sums. -/
def energy (x : Arr) : EReal := ∑ d : Fin 256, colSum x d * colSum x d

/-- The sum of every entry of the Gram matrix of the normalised rows. -/
def gram (x : Arr) : EReal := ∑ i : Fin 16384, ∑ j : Fin 16384, ∑ k : Fin 256, unitR x i k * unitR x j k

/-- A sum over the indices of a one-axis shape is the sum over the axis's coordinates. -/
theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx := ⟨ix1, fun j => j 0, fun _ => rfl, fun j => (eq_ix1 j).symm⟩
  exact (Equiv.sum_comp e f).symm

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real normalised entry: `a d * (√(∑ k, a k * a k))⁻¹` (zero on a zero row, where every `a d` is zero). -/
def q (a : Fin 256 → ℝ) (d : Fin 256) : ℝ := a d * (Real.sqrt (∑ k, a k * a k))⁻¹

theorem sumsq_nonneg (a : Fin 256 → ℝ) : 0 ≤ ∑ k, a k * a k :=
  Finset.sum_nonneg fun k _ => mul_self_nonneg (a k)

/-- A row of reals whose squares sum to zero is zero. -/
theorem entry_zero_of_sumsq_zero (a : Fin 256 → ℝ) (h0 : ∑ k, a k * a k = 0) (d : Fin 256) : a d = 0 :=
  mul_self_eq_zero.mp
    ((Finset.sum_eq_zero_iff_of_nonneg (fun k _ => mul_self_nonneg (a k))).mp h0 d (Finset.mem_univ d))

theorem one_word : Ideal.ofBits .f32 0x3F800000#32 = 1 := IdealRules.sign_bit.ideal_onePat .f32

/-- With the reciprocal square root: `a d * rsqrt (∑ a²)` is the real `q a d`. -/
theorem rsqrt_form (a : Fin 256 → ℝ) (d : Fin 256) :
    (a d : EReal) * Ideal.rsqrt ((∑ k, a k * a k : ℝ) : EReal) = (q a d : ℝ) := by
  have hn := sumsq_nonneg a
  rw [Ideal.rsqrt_coe, if_neg (not_lt.mpr hn)]
  by_cases h0 : ∑ k, a k * a k = 0
  · rw [if_pos h0, q, entry_zero_of_sumsq_zero a h0 d, zero_mul, EReal.coe_zero, zero_mul]
  · rw [if_neg h0, ← EReal.coe_mul, q]

/-- With the quotient: `(1 / sqrt (0 + ∑ a²)) * a d` is the same real. -/
theorem div_sqrt_form (a : Fin 256 → ℝ) (d : Fin 256) :
    Ideal.div (Ideal.ofBits .f32 0x3F800000#32)
        (Ideal.sqrt (Ideal.ofBits .f32 0x00000000#32 + ((∑ k, a k * a k : ℝ) : EReal))) * (a d : EReal)
      = (q a d : ℝ) := by
  have hn := sumsq_nonneg a
  rw [Ideal.ofBits_zero_f32, zero_add, Ideal.sqrt_coe, if_neg (not_lt.mpr hn), one_word]
  by_cases h0 : ∑ k, a k * a k = 0
  · rw [q, entry_zero_of_sumsq_zero a h0 d, zero_mul, EReal.coe_zero, mul_zero]
  · have hs : Real.sqrt (∑ k, a k * a k) ≠ 0 :=
      (Real.sqrt_pos.mpr (lt_of_le_of_ne hn (Ne.symm h0))).ne'
    rw [Ideal.div_coe hs, one_mul, ← EReal.coe_mul, q, one_div, mul_comm]

/-- For an array of reals the Gram matrix of the normalised rows sums to the squared length of their column sums. -/
theorem gram_eq_energy (x : Arr) (hx : ∀ i d, ∃ a : ℝ, x (ix2 i d) = a) : gram x = energy x := by
  choose a ha using hx
  have hsq : ∀ i, sq x i = ((∑ k, a i k * a i k : ℝ) : EReal) := fun i => by
    unfold sq
    rw [coe_sum]
    exact Finset.sum_congr rfl fun k _ => by rw [ha, EReal.coe_mul]
  have hK : ∀ i d, unitK x i d = (q (a i) d : ℝ) := fun i d => by
    unfold unitK
    rw [hsq, ha]
    exact rsqrt_form (a i) d
  have hR : ∀ i d, unitR x i d = (q (a i) d : ℝ) := fun i d => by
    unfold unitR
    rw [hsq, ha]
    exact div_sqrt_form (a i) d
  have hg : gram x
      = ((∑ i : Fin 16384, ∑ j : Fin 16384, ∑ k : Fin 256, q (a i) k * q (a j) k : ℝ) : EReal) := by
    unfold gram
    rw [coe_sum]
    refine Finset.sum_congr rfl fun i _ => ?_
    rw [coe_sum]
    refine Finset.sum_congr rfl fun j _ => ?_
    rw [coe_sum]
    exact Finset.sum_congr rfl fun k _ => by rw [hR, hR, EReal.coe_mul]
  have he : energy x = ((∑ d : Fin 256, (∑ i : Fin 16384, q (a i) d) * (∑ i : Fin 16384, q (a i) d) : ℝ) : EReal) := by
    unfold energy
    rw [coe_sum]
    refine Finset.sum_congr rfl fun d _ => ?_
    have hc : colSum x d = ((∑ i : Fin 16384, q (a i) d : ℝ) : EReal) := by
      unfold colSum
      rw [coe_sum]
      exact Finset.sum_congr rfl fun i _ => hK i d
    rw [hc, EReal.coe_mul]
  rw [hg, he, EReal.coe_eq_coe_iff]
  calc ∑ i : Fin 16384, ∑ j : Fin 16384, ∑ k : Fin 256, q (a i) k * q (a j) k
      = ∑ i : Fin 16384, ∑ k : Fin 256, ∑ j : Fin 16384, q (a i) k * q (a j) k :=
        Finset.sum_congr rfl fun i _ => Finset.sum_comm
    _ = ∑ k : Fin 256, ∑ i : Fin 16384, ∑ j : Fin 16384, q (a i) k * q (a j) k := Finset.sum_comm
    _ = ∑ k : Fin 256, (∑ i : Fin 16384, q (a i) k) * (∑ j : Fin 16384, q (a j) k) :=
        Finset.sum_congr rfl fun k _ => (Finset.sum_mul_sum _ _ _ _).symm

/-! ## The rows in four blocks of 4096 -/

/-- Row `r` of block `t`. -/
def blockRow (t : Fin 4) (r : Fin 4096) : Fin 16384 := ⟨4096 * t.val + r.val, by omega⟩

/-- Column `d` of the normalised rows, summed over the rows of block `t`. -/
def partSum (x : Arr) (t : Fin 4) (d : Fin 256) : EReal := ∑ r : Fin 4096, unitK x (blockRow t r) d

/-- The column sum over all rows is the sum of the four block sums. -/
theorem colSum_blocks (x : Arr) (d : Fin 256) :
    colSum x d = (partSum x 0 d + partSum x 1 d) + (partSum x 2 d + partSum x 3 d) := by
  have e := Equiv.sum_comp (finProdFinEquiv (m := 4) (n := 4096)) (fun i : Fin (4 * 4096) => unitK x i d)
  have h4 : colSum x d = ∑ t : Fin 4, partSum x t d := by
    unfold colSum partSum
    rw [show (∑ i : Fin 16384, unitK x i d) = ∑ i : Fin (4 * 4096), unitK x i d from rfl, ← e,
      Fintype.sum_prod_type]
    refine Finset.sum_congr rfl fun t _ => Finset.sum_congr rfl fun r _ => ?_
    congr 1
    apply Fin.ext
    show r.val + 4096 * t.val = 4096 * t.val + r.val
    omega
  rw [h4, Fin.sum_univ_four, add_assoc (partSum x 0 d + partSum x 1 d)]

end Cert.RowNorm

end
-- ==== Proof.Finite.lean ====
/-
  From the precondition to real entries.

  The precondition says that `|x i| < +∞` holds at every index of the argument array (one conjunction over all
  entries).  On the extended reals `|v| = max v (-v)`, which is `⊤` at both infinities, so each entry is a real number.
-/
import proofs.«417156_j33956011442258_3_alg».proof.Pre_finite_inputs
import proofs.«417156_j33956011442258_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

open Idealize.ShloMosaic Idealize.ShloMosaic.ValueIdx

namespace Cert.Finite

instance : Subsingleton Cert.Pre_finite_inputs.S_.Idx := ⟨fun a b => funext fun d => d.elim0⟩

/-- The f32 pattern of `+∞` is the top of the extended reals. -/
theorem inf_word : Ideal.ofBits .f32 0x7F800000#32 = ⊤ := by simp [Ideal.ofBits, Ideal.ieee]

/-- An extended real whose absolute value is below `⊤` is a real. -/
theorem real_of_abs_lt_top (v : EReal) (hv : max v (-v) < ⊤) : ∃ a : ℝ, v = a := by
  induction v using EReal.rec with
  | bot => simp at hv
  | coe a => exact ⟨a, rfl⟩
  | top => simp at hv

/-- Under the precondition every entry of the argument array is a real number. -/
theorem real_of_pre (x : FVec Ideal Cert.Pre_finite_inputs.S16384x256 .f32)
    (h : Cert.Pre_finite_inputs.fn (F := Ideal) x = fun _ => 1#1) (i : Cert.Pre_finite_inputs.S16384x256.Idx) :
    ∃ a : ℝ, x i = a := by
  have h0 := congrFun h ix0
  dsimp only [Cert.Pre_finite_inputs.fn] at h0
  have hi := Host.reduce_andi_all _ _ _ _ _ h0 i
  change Ideal.cmp .olt (max (x i) (-(x i))) (Ideal.ofBits .f32 0x7F800000#32) = 1#1 at hi
  rw [inf_word] at hi
  refine real_of_abs_lt_top (x i) ?_
  change BitVec.ofBool (decide (max (x i) (-(x i)) < ⊤)) = 1#1 at hi
  by_contra hn
  rw [decide_eq_false hn] at hi
  exact absurd hi (by decide)

end Cert.Finite

end
-- ==== Proof.KPieces.lean ====
/-
  What one run of the row-sum body leaves behind, read as values (at any float instance).

  The body keeps a running row of 256 column sums in a scratch buffer.  At a point that opens a core's share of the
  rows it first stores the zero row, then adds the block's partial sums to what it reads back; at the other points it
  adds them to what the point before left.  So the scratch ends at `step x 0` in the first case and at `step x acc`
  in the second, where `step x acc = acc + (column sums of the normalised rows of the block x)` is the body's one
  arithmetic payload.  At a point that closes a core's share the body also fills the 8-row output block: row 0 is the
  scratch as just updated, rows 1 to 7 are zero.
-/
import proofs.«417156_j33956011442258_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Pieces

open Cert.KernelIdeal Cert.KernelIdeal.Gen

variable {F : FTy → Type} [FloatOps F]

theorem offs_zero : (![0, 0] : Fin 2 → Nat) = fun _ => 0 := funext fun a => by fin_cases a <;> rfl

/-- The scratch after a point that resets it: the update applied to the zero row. -/
theorem scratch_reset (c : Dev nD) (i : grid0.Coords) (a2 : Memref sig .tc .vmem S4096x256 .f32) (h2 : a2.IsWhole)
    (a3 : Memref sig .tc .vmem S8x256 .f32) (h3 : a3.IsWhole) (a4 : Memref sig .tc .vmem S1x256 .f32) (h4 : a4.IsWhole)
    (hc0 : cond0_0 i) (hc1 : ¬cond0_1 i) (x : Vec F S4096x256 .f32) :
    sout0_A_0 c i a2 h2 a3 h3 a4 h4 hc0 hc1 x = k0_pay2 x (k0_pay1 (F := F)) := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1x256) offs_zero, View.readCov_unit_zero (S := S1x256) _ offs_zero]
  simp only [View.readAt_eq_ld, h2.read_unread, View.ld_unit_zero (S := S4096x256) offs_zero]

/-- The scratch after a point that carries it on: the update applied to what the point before left. -/
theorem scratch_carry (c : Dev nD) (i : grid0.Coords) (a2 : Memref sig .tc .vmem S4096x256 .f32) (h2 : a2.IsWhole)
    (a3 : Memref sig .tc .vmem S8x256 .f32) (h3 : a3.IsWhole) (a4 : Memref sig .tc .vmem S1x256 .f32) (h4 : a4.IsWhole)
    (hc0 : ¬cond0_0 i) (hc1 : cond0_1 i) (x : Vec F S4096x256 .f32) (xs : Vec F S1x256 .f32) :
    sout0_B_0 c i a2 h2 a3 h3 a4 h4 hc0 hc1 x xs = k0_pay2 x xs := by
  unfold sout0_B_0
  rw [View.read_writes_eq_canon _ _ _ (scover0_B_0 c i a2 h2 a3 h3 a4 h4 hc0 hc1 x xs)]
  unfold kernelRun0_B
  dsimp only
  sl_unfold_words
  rw [View.canon_unit_zero offs_zero]
  simp only [View.readAt_eq_ld, h2.read_unread, h4.read_unread, View.ld_unit_zero (S := S4096x256) offs_zero,
    View.ld_unit_zero (S := S1x256) offs_zero]

/-- The 8-row block a closing point stores: row 0 the running sums `acc`, rows 1 to 7 zero. -/
def outBlock (acc : Vec F S1x256 .f32) : Vec F S8x256 .f32 := fun y =>
  if (y 0).val = 0 then acc (ix2 0 (y 1)) else Scalar.ofBits .f32 0x00000000#32

/-- The output block after a closing point is `outBlock` of the scratch as that point leaves it. -/
theorem out_close (c : Dev nD) (i : grid0.Coords) (a2 : Memref sig .tc .vmem S4096x256 .f32) (h2 : a2.IsWhole)
    (a3 : Memref sig .tc .vmem S8x256 .f32) (h3 : a3.IsWhole) (a4 : Memref sig .tc .vmem S1x256 .f32) (h4 : a4.IsWhole)
    (hc0 : ¬cond0_0 i) (hc1 : cond0_1 i) (x : Vec F S4096x256 .f32) (xs : Vec F S1x256 .f32) :
    out0_B_1 c i a2 h2 a3 h3 a4 h4 hc0 hc1 x xs = outBlock (k0_pay2 x xs) := by
  unfold out0_B_1
  rw [View.read_writes_eq_canon _ _ _ (cover0_B_1 c i a2 h2 a3 h3 a4 h4 hc0 hc1 x xs)]
  funext y
  refine View.canon_apply_of_pieces (outBlock (k0_pay2 x xs)) _ ?_ y (cover0_B_1 c i a2 h2 a3 h3 a4 h4 hc0 hc1 x xs y)
  unfold kernelRun0_B
  dsimp only
  sl_unfold_words
  intro p hp
  simp only [List.mem_cons, List.mem_nil_iff, or_false] at hp
  rcases hp with rfl | rfl
  · intro z
    have he : (((Rect.unit (s := S8x256) ![1, 0] ![7, 256] inb_S8x256_S7x256_1_0).emb z) 0).val = 1 + 1 * (z 0).val := rfl
    show k0_pay3 (F := F) z = outBlock (k0_pay2 x xs) ((Rect.unit (s := S8x256) ![1, 0] ![7, 256] inb_S8x256_S7x256_1_0).emb z)
    unfold outBlock
    rw [if_neg (by rw [he]; omega)]
    rfl
  · intro z
    dsimp only
    rw [View.readCov_unit_zero (S := S1x256) _ offs_zero]
    simp only [View.readAt_eq_ld, h2.read_unread, h4.read_unread, View.ld_unit_zero (S := S4096x256) offs_zero,
      View.ld_unit_zero (S := S1x256) offs_zero]
    have hz0 : (z 0).val = 0 := by have := (z 0).isLt; change (z 0).val < 1 at this; omega
    have he0 : (((Rect.unit (s := S8x256) ![0, 0] ![1, 256] inb_S8x256_S1x256_0_0).emb z) 0).val = 0 + 1 * (z 0).val := rfl
    have he1 : (((Rect.unit (s := S8x256) ![0, 0] ![1, 256] inb_S8x256_S1x256_0_0).emb z) 1).val = 0 + 1 * (z 1).val := rfl
    unfold outBlock
    rw [if_pos (by rw [he0]; omega)]
    refine congrArg (k0_pay2 x xs) (funext fun a => Fin.ext ?_)
    match a with
    | ⟨0, _⟩ => exact hz0
    | ⟨1, _⟩ => show (z 1).val = _; rw [he1]; omega

end Cert.KernelIdeal.Pieces

end
-- ==== Proof.KArray.lean ====
/-
  The result array of the row-sum region, and the program's result.

  The grid has four points; point `t` reads row block `t` (4096 rows).  Points 0 and 2 open a core's share and reset the
  running sums, points 1 and 3 close it and store the core's 8-row block, which is the only time a block is written
  back.  So the 16-row result array holds, in row 0, the sums over blocks 0 and 1, in row 8 those over blocks 2 and 3,
  and zero in every other row.  The program then sums the rows, squares, sums the lanes, subtracts and divides.
-/
import proofs.«417156_j33956011442258_3_alg».proof.Proof.KPieces
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.RowSum

open Cert.KernelIdeal Cert.KernelIdeal.Gen Cert.KernelIdeal.Pieces

variable {F : FTy → Type} [FloatOps F]
variable (m : (ℓ : Loc nD τ sig) → Buf (Elt F) ℓ) (ρ : Dev nD → PrngReg)

/-- The row block point `t` reads. -/
abbrev xblk (c : Dev nD) (t : Fin cfg0.N) : Vec F S4096x256 .f32 := iblk m c 0 t

/-- After a point that opens a core's share the scratch holds the update of the zero row by that point's block. -/
theorem scratch_at_open (c : Dev nD) (t : Fin cfg0.N) (h0 : t.val % 2 = 0) :
    (outsAt0 m c t.val t.isLt).2 = k0_pay2 (xblk m c t) (k0_pay1 (F := F)) := by
  have h1 : ¬t.val % 2 = 1 := by omega
  rw [outsAt0_A m c t h0 h1]
  dsimp only
  exact scratch_reset c (grid0.coords t) (ms0_0 t) (hs0_0 t) (ms0_1 t) (hs0_1 t) scM0_0 (Memref.isWhole_whole _)
    ((hcond0_0 t).mpr h0) (fun h => h1 ((hcond0_1 t).mp h)) (iblk m c 0 t)

/-- The point before `t`. -/
def prev (t : Fin cfg0.N) : Fin cfg0.N := ⟨t.val - 1, Nat.lt_of_le_of_lt (Nat.sub_le _ _) t.isLt⟩

/-- The running sums after the closing point `t`: the zero row updated by the block before and then by `t`'s. -/
def coreAcc (c : Dev nD) (t : Fin cfg0.N) : Vec F S1x256 .f32 :=
  k0_pay2 (xblk m c t) (k0_pay2 (xblk m c (prev t)) (k0_pay1 (F := F)))

/-- After a closing point the output block is `outBlock` of those sums. -/
theorem out_at_close (c : Dev nD) (t : Fin cfg0.N) (h1 : t.val % 2 = 1) :
    (outsAt0 m c t.val t.isLt).1 = outBlock (coreAcc m c t) := by
  have h0 : ¬t.val % 2 = 0 := by omega
  rw [outsAt0_B m c t h0 h1]
  dsimp only
  refine (out_close c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2).trans ?_
  exact congrArg (fun s => outBlock (k0_pay2 (xblk m c t) s))
    (scratch_at_open m c (prev t) (by show (t.val - 1) % 2 = 0; omega))

/-- The result array: the two cores' sums in rows 0 and 8, zero elsewhere. -/
def outArr (c : Dev nD) : S16x256.Idx → Elt F .f32 := fun j =>
  if (j 0).val = 0 then coreAcc m c t0_1 (ix2 0 (j 1))
  else if (j 0).val = 8 then coreAcc m c t0_3 (ix2 0 (j 1))
  else Scalar.ofBits .f32 0x00000000#32

/-- The output window's block index at point `t`: block `t / 2` of the rows, the one block of the lanes. -/
theorem out_index : ∀ t : Fin cfg0.N, win0_1.index t (0 : Fin 2) = t.val / 2 ∧ win0_1.index t (1 : Fin 2) = 0 :=
  (by decide +kernel : ∀ t : Fin grid0.N, win0_1.index t (0 : Fin 2) = t.val / 2 ∧ win0_1.index t (1 : Fin 2) = 0)

/-- What a point writes back is its block of `outArr`. -/
theorem flushed_eq (c : Dev nD) (t : Fin cfg0.N) (hf : (cfg0.win 1).flush t = true) :
    (dats m 0 c).flushed 1 t = ((cfg0.win 1).blk t).view.read (Elt F) (outArr m c) := by
  have h1 : t.val % 2 = 1 := (flush0_1 t).mp hf
  show (cfg0.win 1).cut (grid0.coords t) ((dats m 0 c).after 1 t) = _
  rw [after0_1, out_at_close m c t h1]
  obtain ⟨e0, e1⟩ := out_index t
  funext y
  show outBlock (coreAcc m c t) y = outArr m c (((cfg0.win 1).blk t).view.emb y)
  have r0 : ((((cfg0.win 1).blk t).view.emb y) 0).val = win0_1.index t (0 : Fin 2) * 8 + 1 * (y 0).val := rfl
  have r1 : ((((cfg0.win 1).blk t).view.emb y) 1).val = win0_1.index t (1 : Fin 2) * 256 + 1 * (y 1).val := rfl
  have hy0 : (y 0).val < 8 := (y 0).isLt
  have hN : t.val < 4 := lt_of_lt_of_eq t.isLt N_0
  have hcol : (((cfg0.win 1).blk t).view.emb y) 1 = y 1 := Fin.ext (by rw [r1, e1]; omega)
  simp only [outBlock, outArr]
  rw [hcol]
  rcases (show t.val = 1 ∨ t.val = 3 by omega) with ht | ht
  · have hrow : ((((cfg0.win 1).blk t).view.emb y) 0).val = (y 0).val := by rw [r0, e0]; omega
    have htt : t = t0_1 := Fin.ext ht
    rw [hrow]
    subst htt
    by_cases hy : (y 0).val = 0
    · rw [if_pos hy, if_pos hy]
    · rw [if_neg hy, if_neg hy, if_neg (by omega)]
  · have hrow : ((((cfg0.win 1).blk t).view.emb y) 0).val = 8 + (y 0).val := by rw [r0, e0]; omega
    have htt : t = t0_3 := Fin.ext ht
    rw [hrow]
    subst htt
    by_cases hy : (y 0).val = 0
    · rw [if_pos hy, if_neg (by omega), if_pos (by omega)]
    · rw [if_neg hy, if_neg (by omega), if_neg (by omega)]

/-- An index is in point `t`'s block when each coordinate is in the block's range. -/
theorem mem_blk (t : Fin cfg0.N) (i : S16x256.Idx) :
    i ∈ ((cfg0.win 1).blk t).view.set ↔ ∀ a : Fin 2, win0_1.index t a * S8x256.size a ≤ (i a).val
      ∧ (i a).val < win0_1.index t a * S8x256.size a + S8x256.size a := by
  show i ∈ ((View.whole main_v0).slice (win0_1.rect t)).set ↔ _
  rw [View.set_slice_whole, Rect.mem_set_unit]
  exact Iff.rfl

/-- Rows 0 to 7 are written back at point 1, rows 8 to 15 at point 3. -/
theorem covered (i : S16x256.Idx) :
    ∃ t : Fin cfg0.N, (cfg0.win 1).flush t = true ∧ i ∈ ((cfg0.win 1).blk t).view.set := by
  have hi0 : (i 0).val < 16 := (i 0).isLt
  have hi1 : (i 1).val < 256 := (i 1).isLt
  by_cases h : (i 0).val < 8
  · refine ⟨t0_1, (flush0_1 t0_1).mpr rfl, ?_⟩
    rw [mem_blk]
    have e0 : win0_1.index t0_1 (0 : Fin 2) = 0 := by decide +kernel
    have e1 : win0_1.index t0_1 (1 : Fin 2) = 0 := by decide +kernel
    intro a
    match a with
    | ⟨0, _⟩ =>
      show win0_1.index t0_1 (0 : Fin 2) * 8 ≤ (i 0).val ∧ (i 0).val < win0_1.index t0_1 (0 : Fin 2) * 8 + 8
      rw [e0]; omega
    | ⟨1, _⟩ =>
      show win0_1.index t0_1 (1 : Fin 2) * 256 ≤ (i 1).val ∧ (i 1).val < win0_1.index t0_1 (1 : Fin 2) * 256 + 256
      rw [e1]; omega
  · refine ⟨t0_3, (flush0_1 t0_3).mpr rfl, ?_⟩
    rw [mem_blk]
    have e0 : win0_1.index t0_3 (0 : Fin 2) = 1 := by decide +kernel
    have e1 : win0_1.index t0_3 (1 : Fin 2) = 0 := by decide +kernel
    intro a
    match a with
    | ⟨0, _⟩ =>
      show win0_1.index t0_3 (0 : Fin 2) * 8 ≤ (i 0).val ∧ (i 0).val < win0_1.index t0_3 (0 : Fin 2) * 8 + 8
      rw [e0]; omega
    | ⟨1, _⟩ =>
      show win0_1.index t0_3 (1 : Fin 2) * 256 ≤ (i 1).val ∧ (i 1).val < win0_1.index t0_3 (1 : Fin 2) * 256 + 256
      rw [e1]; omega

/-- The result array after the region is `outArr`. -/
theorem final (c : Dev nD) : (dats m 0 c).arrAt 1 cfg0.N = outArr m c :=
  (dats m 0 c).arrAt_eq_of_cover 1 (outArr m c) (flushed_eq m c) covered

/-- What the program computes from the result array: the rows summed, squared, the lanes summed, less 16384, over 2^28. -/
def tail (o : (⟨S16x256, .f32⟩ : BufTy).Contents (Elt F)) : (⟨S_, .f32⟩ : BufTy).Contents (Elt F) :=
  Host.divf (subf (Host.reduceAdd
      (mulf (Host.reduceAdd o (constant S_ .f32 0x00000000#32) reducesTo_S16x256_S256_d0 h_S_)
        (Host.reduceAdd o (constant S_ .f32 0x00000000#32) reducesTo_S16x256_S256_d0 h_S_))
      (constant S_ .f32 0x00000000#32) reducesTo_S256_S_d0 h_S_) (constant S_ .f32 0x46800000#32))
    (constant S_ .f32 0x4D800000#32)

/-- The program's result buffer after the run. -/
theorem tail_eq (c : Dev nD) :
    Pipeline.afterTail₀ cfgs (dats m) 0 (V0 m) [hostOps1] c main_v5 = tail (outArr m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v0) = outArr m c :=
    (Pipeline.withArrays_arr spec0 launch0.win.arr_inj c _ _ 1).trans (final m c)
  rw [hw]
  rfl

/-- The run, read: the program's result at `tail` of the result array, the argument unchanged. -/
theorem run : θ_run defs (onTc (τ := τ) (main (F := F))) ⟨m, fun _ => 0, ρ⟩ fun r => ∀ c : Dev nD,
      r.2.mem ((c.tc : Thread nD τ).loc main_v5) = tail (outArr m c)
      ∧ r.2.mem ((c.tc : Thread nD τ).loc main_arg0) = m ((c.tc : Thread nD τ).loc main_arg0) :=
  (θ_run defs _ _).mono (fun _ h c =>
      ⟨((h c).2 main_v5 (Pipeline.mem_restRefs_of main_v5 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.RowSum

end
-- ==== Proof.KPayload.lean ====
/-
  The body's arithmetic, read at an index over the extended reals.

  For a block `X` of 4096 rows and the running row `acc`, the update leaves at column `d`
      acc d + ∑ r, X r d * rsqrt (∑ k, X r k * X r k):
  each row is scaled by the reciprocal square root of its squared length (a lane sum kept as a column, broadcast back
  over the lanes) and the scaled rows are summed down the block.  The reset row is zero everywhere.
-/
import proofs.«417156_j33956011442258_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-- A vector of 4096 entries kept as a column reads, at `(r, u)`, its entry `r`. -/
theorem column_apply {α : Type} (v : S4096.Idx → α) (h : S4096.ShapeCasts S4096x1) (r : Fin 4096) (u : Fin 1) :
    shapeCast S4096x1 v h (ix2 r u) = v (ix1 r) :=
  shapeCast_apply v h _ _ (by
    have hu : u.val = 0 := by omega
    rw [Shape.rowMajor_val_one, Shape.rowMajor_val_two]
    show r.val = r.val * 1 + u.val
    omega)

/-- A column broadcast over 256 lanes reads, at `(r, d)`, the column's entry `r`. -/
theorem lanes_apply {α : Type} (v : S4096x1.Idx → α) (h : S4096x1.Broadcasts S4096x256) (r : Fin 4096) (d : Fin 256) :
    broadcastTo S4096x256 v h (ix2 r d) = v (ix2 r (0 : Fin 1)) := by
  refine broadcastTo_apply v h (ix2 r d) (ix2 r (0 : Fin 1)) fun ax => ?_
  match ax with
  | ⟨0, _⟩ => show r.val = if (4096 : Nat) = 1 then 0 else r.val; rw [if_neg (by decide)]
  | ⟨1, _⟩ => show (0 : Nat) = if (1 : Nat) = 1 then 0 else d.val; rw [if_pos rfl]

/-- The update at column `d`: the running entry plus the block's column sum of its normalised rows. -/
theorem step_apply (X : Vec Ideal S4096x256 .f32) (acc : Vec Ideal S1x256 .f32) (d : Fin 256) :
    k0_pay2 (F := Ideal) X acc (ix2 (0 : Fin 1) d)
      = acc (ix2 (0 : Fin 1) d)
        + ∑ r : Fin 4096, X (ix2 r d) * Ideal.rsqrt (∑ k : Fin 256, X (ix2 r k) * X (ix2 r k)) := by
  unfold k0_pay2
  dsimp only
  rw [shapeCast_self]
  refine congrArg (acc (ix2 (0 : Fin 1) d) + ·) ?_
  refine (shapeCast_a_1a_apply _ _ (0 : Fin 1) d).trans ?_
  refine (Ideal.multiReduction_add_single _ _ _ _ _ (ix1 d)).trans ?_
  refine Finset.sum_congr rfl fun r _ => ?_
  have hl : reduces_S4096x256_S256.lift (ix1 d) r = ix2 r d :=
    funext fun a => Fin.ext (by match a with | ⟨0, _⟩ => rfl | ⟨1, _⟩ => rfl)
  rw [hl]
  refine congrArg (X (ix2 r d) * ·) ?_
  refine (lanes_apply _ _ r d).trans ?_
  refine congrArg Ideal.rsqrt ?_
  refine (column_apply _ _ r (0 : Fin 1)).trans ?_
  refine (Ideal.multiReduction_add_single _ _ _ _ _ (ix1 r)).trans ?_
  refine Finset.sum_congr rfl fun k _ => ?_
  have hl2 : reduces_S4096x256_S4096.lift (ix1 r) k = ix2 r k :=
    funext fun a => Fin.ext (by match a with | ⟨0, _⟩ => rfl | ⟨1, _⟩ => rfl)
  exact congrArg (fun i => FloatOps.mulf (F := Ideal) (φ := .f32) (X i) (X i)) hl2

/-- The reset row is zero at every column. -/
theorem reset_apply (j : S1x256.Idx) : k0_pay1 (F := Ideal) j = 0 := by
  unfold k0_pay1
  rw [shapeCast_self]
  exact Ideal.ofBits_zero_f32

end Cert.KernelIdeal.Payload

end
-- ==== Proof.KValue.lean ====
/-
  The program's result over the extended reals: `(‖column sums of the normalised rows‖² - 16384) / 2^28`.

  Block `t` of the argument is its rows `4096 t` to `4096 t + 4095`, so what a closing point leaves at column `d` is the
  sum over two consecutive row blocks of the normalised entries of that column.  Rows 0 and 8 of the result array
  carry the two cores' sums and every other row is zero, so the sum of the rows is the column sum over all 16384 rows.
-/
import proofs.«417156_j33956011442258_3_alg».proof.Proof.KArray
import proofs.«417156_j33956011442258_3_alg».proof.Proof.KPayload
import proofs.«417156_j33956011442258_3_alg».proof.Proof.GramSum
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.RowSum

open Cert.KernelIdeal Cert.KernelIdeal.Gen Cert.KernelIdeal.Pieces Cert.RowNorm

variable (m : (ℓ : Loc nD τ sig) → Buf (Elt Ideal) ℓ)

/-- The argument array on core `c`. -/
abbrev arg (c : Dev nD) : Arr := m ((c.tc : Thread nD τ).loc main_arg0)

/-- The input window's block index at point `t`: block `t` of the rows, the one block of the lanes. -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row `r` of the block point `t` reads is row `4096 t + r` of the argument. -/
theorem xblk_apply (c : Dev nD) (t : Fin cfg0.N) (b : Fin 4) (hb : b.val = t.val) (r : Fin 4096) (d : Fin 256) :
    xblk m c t (ix2 r d) = arg m c (ix2 (blockRow b r) d) := by
  obtain ⟨e0, e1⟩ := in_index t
  show iblk m c 0 t (ix2 r d) = _
  unfold iblk
  rw [View.read_apply]
  show m ((c.tc : Thread nD τ).loc main_arg0) _ = m ((c.tc : Thread nD τ).loc main_arg0) _
  refine congrArg (m ((c.tc : Thread nD τ).loc main_arg0)) (funext fun a => Fin.ext ?_)
  match a with
  | ⟨0, _⟩ =>
    show win0_0.index t (0 : Fin 2) * 4096 + 1 * r.val = 4096 * b.val + r.val
    rw [e0, hb]; omega
  | ⟨1, _⟩ =>
    show win0_0.index t (1 : Fin 2) * 256 + 1 * d.val = d.val
    rw [e1]; omega

/-- The block's column sum of its normalised rows is the argument's over that row block. -/
theorem part_eq (c : Dev nD) (t : Fin cfg0.N) (b : Fin 4) (hb : b.val = t.val) (d : Fin 256) :
    (∑ r : Fin 4096, xblk m c t (ix2 r d) * Ideal.rsqrt (∑ k : Fin 256, xblk m c t (ix2 r k) * xblk m c t (ix2 r k)))
      = partSum (arg m c) b d := by
  unfold partSum unitK RowNorm.sq
  refine Finset.sum_congr rfl fun r _ => ?_
  rw [xblk_apply m c t b hb r d]
  refine congrArg (fun s => arg m c (ix2 (blockRow b r) d) * Ideal.rsqrt s) ?_
  exact Finset.sum_congr rfl fun k _ => by rw [xblk_apply m c t b hb r k]

/-- A closing point's sums at column `d`: the zero row plus the two block sums. -/
theorem coreAcc_apply (c : Dev nD) (t : Fin cfg0.N) (b b' : Fin 4) (hb : b.val = t.val) (hb' : b'.val = t.val - 1)
    (d : Fin 256) :
    coreAcc m c t (ix2 (0 : Fin 1) d) = (0 + partSum (arg m c) b' d) + partSum (arg m c) b d := by
  unfold coreAcc
  refine (Payload.step_apply (xblk m c t) _ d).trans ?_
  rw [part_eq m c t b hb d]
  refine congrArg (· + partSum (arg m c) b d) ?_
  refine (Payload.step_apply (xblk m c (prev t)) _ d).trans ?_
  rw [part_eq m c (prev t) b' hb' d, Payload.reset_apply]

/-- The result array at row `r`, column `d`. -/
theorem outArr_apply (c : Dev nD) (r : Fin 16) (d : Fin 256) :
    outArr m c (ix2 r d) = if r.val = 0 then coreAcc m c t0_1 (ix2 (0 : Fin 1) d)
      else if r.val = 8 then coreAcc m c t0_3 (ix2 (0 : Fin 1) d) else Scalar.ofBits (F := Ideal) .f32 0x00000000#32 := rfl

/-- Only rows 0 and 8 of the result array are not zero. -/
theorem rows_sum (c : Dev nD) (d : Fin 256) :
    (∑ r : Fin 16, outArr m c (ix2 r d)) = colSum (arg m c) d := by
  have hsum : (∑ r : Fin 16, outArr m c (ix2 r d)) = outArr m c (ix2 (0 : Fin 16) d) + outArr m c (ix2 (8 : Fin 16) d) := by
    refine Finset.sum_eq_add_of_mem (0 : Fin 16) 8 (Finset.mem_univ _) (Finset.mem_univ _) (by decide) fun r _ hr => ?_
    rw [outArr_apply, if_neg (show ¬(r.val = 0) from fun h => hr.1 (Fin.ext h)),
      if_neg (show ¬(r.val = 8) from fun h => hr.2 (Fin.ext h))]
    exact Ideal.ofBits_zero_f32
  have h0 : outArr m c (ix2 (0 : Fin 16) d) = coreAcc m c t0_1 (ix2 (0 : Fin 1) d) := by
    rw [outArr_apply, if_pos (show (0 : Fin 16).val = 0 from rfl)]
  have h8 : outArr m c (ix2 (8 : Fin 16) d) = coreAcc m c t0_3 (ix2 (0 : Fin 1) d) := by
    rw [outArr_apply, if_neg (show ¬((8 : Fin 16).val = 0) by decide), if_pos (show (8 : Fin 16).val = 8 from rfl)]
  rw [hsum, h0, h8, coreAcc_apply m c t0_1 1 0 rfl rfl d, coreAcc_apply m c t0_3 3 2 rfl rfl d, colSum_blocks,
    zero_add, zero_add]

/-- The lines after the region, read at the result's one index. -/
theorem tail_apply (o : S16x256.Idx → EReal) :
    tail (F := Ideal) o ix0
      = Ideal.div ((Ideal.ofBits .f32 0x00000000#32
            + ∑ d : Fin 256, (Ideal.ofBits .f32 0x00000000#32 + ∑ r : Fin 16, o (ix2 r d))
                * (Ideal.ofBits .f32 0x00000000#32 + ∑ r : Fin 16, o (ix2 r d)))
          - Ideal.ofBits .f32 0x46800000#32) (Ideal.ofBits .f32 0x4D800000#32) := by
  have s_apply : ∀ d : Fin 256,
      Host.reduceAdd (F := Ideal) o (constant S_ .f32 0x00000000#32) reducesTo_S16x256_S256_d0 h_S_ (ix1 d)
        = Ideal.ofBits .f32 0x00000000#32 + ∑ r : Fin 16, o (ix2 r d) := fun d => by
    simp only [Host.reduceAdd, Ideal.hostReduceAdd_def]
    rw [Ideal.hostReduceAdd_single reducesTo_S16x256_S256_d0 (by decide)]
    refine congrArg (_ + ·) (Finset.sum_congr rfl fun r _ => ?_)
    exact congrArg o (funext fun a => Fin.ext (by match a with | ⟨0, _⟩ => rfl | ⟨1, _⟩ => rfl))
  unfold tail
  show Ideal.div (Host.reduceAdd (F := Ideal) _ (constant S_ .f32 0x00000000#32) reducesTo_S256_S_d0 h_S_ ix0
      - Ideal.ofBits .f32 0x46800000#32) (Ideal.ofBits .f32 0x4D800000#32) = _
  refine congrArg (fun s => Ideal.div (s - Ideal.ofBits .f32 0x46800000#32) (Ideal.ofBits .f32 0x4D800000#32)) ?_
  simp only [Host.reduceAdd, Ideal.hostReduceAdd_def]
  refine (Ideal.hostReduceAdd_total reducesTo_S256_S_d0 (fun b => b.elim0) _ _ ix0).trans ?_
  refine congrArg (_ + ·) ?_
  rw [sum_idx1]
  refine Finset.sum_congr rfl fun d _ => ?_
  exact congrArg₂ (· * ·) (s_apply d) (s_apply d)

/-- The program's result over the extended reals, as a function of the argument array. -/
theorem result_apply (c : Dev nD) :
    tail (F := Ideal) (outArr m c) ix0
      = Ideal.div ((Ideal.ofBits .f32 0x00000000#32 + energy (arg m c)) - Ideal.ofBits .f32 0x46800000#32)
          (Ideal.ofBits .f32 0x4D800000#32) := by
  rw [tail_apply]
  refine congrArg (fun s => Ideal.div ((Ideal.ofBits .f32 0x00000000#32 + s) - Ideal.ofBits .f32 0x46800000#32)
    (Ideal.ofBits .f32 0x4D800000#32)) ?_
  unfold energy
  refine Finset.sum_congr rfl fun d _ => ?_
  rw [rows_sum, Ideal.ofBits_zero_f32, zero_add]

end Cert.KernelIdeal.RowSum

end
-- ==== Proof.RefValue.lean ====
/-
  The reference's result over the extended reals: `((sum of the Gram matrix of the normalised rows) - 16384) / 2^28`.

  Row `i` of the argument is scaled by `1 / sqrt (0 + ∑ k, x i k * x i k)`; the product of the scaled array with its
  transpose has entry `(i, j)` equal to `∑ k, u i k * u j k`; all its entries are summed from zero.
-/
import proofs.«417156_j33956011442258_3_alg».proof.Proof.Gen.ReferenceIdeal.Read
import proofs.«417156_j33956011442258_3_alg».proof.Proof.GramSum

noncomputable section

open Idealize.ShloMosaic Idealize.ShloMosaic.ValueIdx

namespace Cert.ReferenceIdeal.RefValue

open Cert.ReferenceIdeal Cert.ReferenceIdeal.Read Cert.RowNorm

/-- The scaled array at `(i, d)` is the normalised entry with the factor written as a quotient. -/
theorem scaled_apply (x : Arr) (i : Fin 16384) (d : Fin 256) :
    val_main_v4 (F := Ideal) x (ix2 i d) = unitR x i d := by
  rw [val_main_v4_apply, val_main_v3_apply, val_main_v2_apply, val_main_v1_apply, val_main_cst_apply,
    val_main_v0_apply, val_main_call0_v2_apply, val_main_call0_v1_apply, val_main_call0_cst_apply]
  unfold unitR RowNorm.sq
  refine congrArg (fun s => Ideal.div (Ideal.ofBits .f32 0x3F800000#32)
    (Ideal.sqrt (Ideal.ofBits .f32 0x00000000#32 + s)) * x (ix2 i d)) ?_
  refine Finset.sum_congr rfl fun k _ => ?_
  rw [val_main_call0_v0_apply]
  have hk : idx_main_call0_v1 (idx_main_call0_v2 (idx_main_v3 (ix2 i d))) k = ix2 i k :=
    funext fun a => Fin.ext (by match a with | ⟨0, _⟩ => rfl | ⟨1, _⟩ => rfl)
  rw [hk]
  rfl

/-- Entry `(i, j)` of the product with the transpose. -/
theorem gram_entry (x : Arr) (i j : Fin 16384) :
    val_main_v6 (F := Ideal) x (ix2 i j) = ∑ k : Fin 256, unitR x i k * unitR x j k := by
  rw [val_main_v6_apply]
  refine Finset.sum_congr rfl fun k _ => ?_
  rw [val_main_v5_apply]
  have hl : lidx_main_v6 (ix2 i j) k = ix2 i k :=
    funext fun a => Fin.ext (by match a with | ⟨0, _⟩ => rfl | ⟨1, _⟩ => rfl)
  have hr : idx_main_v5 (ridx_main_v6 (ix2 i j) k) = ix2 j k :=
    funext fun a => Fin.ext (by match a with | ⟨0, _⟩ => rfl | ⟨1, _⟩ => rfl)
  rw [hl, hr, scaled_apply, scaled_apply]

/-- The reference's result at its one index. -/
theorem result_apply (x : Arr) :
    val_main_v9 (F := Ideal) x ix0
      = Ideal.div ((Ideal.ofBits .f32 0x00000000#32 + gram x) - Ideal.ofBits .f32 0x46800000#32)
          (Ideal.ofBits .f32 0x4D800000#32) := by
  rw [val_main_v9_apply, val_main_v8_apply, val_main_v7_apply, val_main_cst_0_apply, val_main_cst_1_apply,
    val_main_cst_2_apply]
  refine congrArg (fun s => Ideal.div ((Ideal.ofBits .f32 0x00000000#32 + s) - Ideal.ofBits .f32 0x46800000#32)
    (Ideal.ofBits .f32 0x4D800000#32)) ?_
  rw [sum_idx2]
  unfold gram
  exact Finset.sum_congr rfl fun i _ => Finset.sum_congr rfl fun j _ => gram_entry x i j

end Cert.ReferenceIdeal.RefValue

end
-- ==== Proof.lean ====
/-
  The mean pairwise cosine similarity of 16384 points in 256 dimensions, less the diagonal:
  `(∑ᵢⱼ pᵢ · pⱼ - 16384) / 16384²` for the rows `pᵢ` of the argument scaled to unit length.

  The reference forms the whole Gram matrix of the scaled rows and sums its entries.  The kernel never forms it: it
  sums the scaled rows column by column — two cores, two blocks of 4096 rows each, a running row of 256 sums per core
  — and the program squares and sums the 256 column sums, since `∑ᵢⱼ pᵢ · pⱼ = ‖∑ᵢ pᵢ‖²`.  Over the extended reals the two
  agree when every entry is a real number, which the precondition gives: then every scaled entry is a real (a zero
  row scales to zero under both spellings of the factor, `rsqrt 0` and `1 / sqrt 0` being `⊤` and `0 * ⊤ = 0`), and finite
  sums of reals exchange.  The subtraction of 16384 and the division by `2^28` are the same two operations on both sides.

  No operation of the kernel was rewritten for its idealization: it is the kernel's own text read over the extended
  reals, and there is nothing for `preserves` to state.
-/
import proofs.«417156_j33956011442258_3_alg».proof.Defs
import proofs.«417156_j33956011442258_3_alg».proof.Proof.Gen.Kernel
import proofs.«417156_j33956011442258_3_alg».proof.Proof.Gen.Kernel.Skeleton
import proofs.«417156_j33956011442258_3_alg».proof.Proof.Gen.Kernel.Launch
import proofs.«417156_j33956011442258_3_alg».proof.Proof.Gen.Kernel.Points
import proofs.«417156_j33956011442258_3_alg».proof.Proof.Gen.Kernel.Frame
import proofs.«417156_j33956011442258_3_alg».proof.Proof.Gen.KernelIdeal
import proofs.«417156_j33956011442258_3_alg».proof.Proof.Gen.KernelIdeal.Skeleton
import proofs.«417156_j33956011442258_3_alg».proof.Proof.Gen.KernelIdeal.Launch
import proofs.«417156_j33956011442258_3_alg».proof.Proof.Gen.KernelIdeal.Points
import proofs.«417156_j33956011442258_3_alg».proof.Proof.Gen.KernelIdeal.Frame
import proofs.«417156_j33956011442258_3_alg».proof.Proof.Gen.ReferenceIdeal
import proofs.«417156_j33956011442258_3_alg».proof.Proof.Gen.Pre_finite_inputs
import proofs.«417156_j33956011442258_3_alg».proof.Proof.Gen.ReferenceIdeal.Run
import proofs.«417156_j33956011442258_3_alg».proof.Proof.Gen.ReferenceIdeal.Read
import proofs.«417156_j33956011442258_3_alg».proof.Proof.GramSum
import proofs.«417156_j33956011442258_3_alg».proof.Proof.Finite
import proofs.«417156_j33956011442258_3_alg».proof.Proof.KValue
import proofs.«417156_j33956011442258_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `((0 + s) - 16384) / 2^28`, the kernel with `s` the squared length of the column sums of the
    normalised rows, the reference with `s` the sum of their Gram matrix; for real entries the two are equal. -/
theorem algebraic : Cert.algebraic_KernelIdeal_ReferenceIdeal := by
  intro m ρ m' ρ' hpre hagree
  refine ⟨fun c => Cert.KernelIdeal.RowSum.tail (Cert.KernelIdeal.RowSum.outArr m c),
    Cert.KernelIdeal.RowSum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, hagree c]
  funext j
  obtain rfl : j = ix0 := eq_ix0 j
  have hreal : ∀ i d, ∃ a : ℝ, Cert.KernelIdeal.RowSum.arg m c (ix2 i d) = a :=
    fun i d => Cert.Finite.real_of_pre _ (hpre c) (ix2 i d)
  exact (Cert.ReferenceIdeal.RefValue.result_apply (Cert.KernelIdeal.RowSum.arg m c)).trans
    ((congrArg (fun s => Ideal.div ((Ideal.ofBits .f32 0x00000000#32 + s) - Ideal.ofBits .f32 0x46800000#32)
        (Ideal.ofBits .f32 0x4D800000#32)) (Cert.RowNorm.gram_eq_energy _ hreal)).trans
      (Cert.KernelIdeal.RowSum.result_apply m c).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
